-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x160x500 : Shape := ⟨3, ![1, 160, 500]⟩
abbrev S4000 : Shape := ⟨1, ![4000]⟩
abbrev S_ : Shape := ⟨0, ![]⟩

class Facts : Prop where
  bcast_S_S1x160x500 : S_.BroadcastsInDim S1x160x500 (![] : Fin 0 → Fin S1x160x500.rank)
  reducesTo_S1x160x500_S_d0_1_2 : S1x160x500.ReducesTo [0, 1, 2] S_
  h_S_ : 0 < S_.numel
  bcast_S_S4000 : S_.BroadcastsInDim S4000 (![] : Fin 0 → Fin S4000.rank)
  reducesTo_S4000_S_d0 : S4000.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S1x160x500 .f32) (main_arg1 : FVec F S1x160x500 .f32) (main_arg2 : IVec S4000 32) : IVec S_ 1 :=
  let main_v0 : FVec F S1x160x500 .f32 := Host.absf main_arg0
  let main_cst : FVec F S_ .f32 := constant S_ .f32 0x7F800000#32
  let main_v1 : FVec F S1x160x500 .f32 := broadcastInDim S1x160x500 ![] bcast_S_S1x160x500 main_cst
  let main_v2 : IVec S1x160x500 1 := cmpf .olt main_v0 main_v1
  let main_c : IVec S_ 1 := constantI S_ 1 1#1
  let main_v3 : IVec S_ 1 := (fun x v => Host.reduce IntOp.andi x v reducesTo_S1x160x500_S_d0_1_2 h_S_) main_v2 main_c
  let main_v4 : FVec F S1x160x500 .f32 := Host.absf main_arg1
  let main_cst_0 : FVec F S_ .f32 := constant S_ .f32 0x7F800000#32
  let main_v5 : FVec F S1x160x500 .f32 := broadcastInDim S1x160x500 ![] bcast_S_S1x160x500 main_cst_0
  let main_v6 : IVec S1x160x500 1 := cmpf .olt main_v4 main_v5
  let main_c_1 : IVec S_ 1 := constantI S_ 1 1#1
  let main_v7 : IVec S_ 1 := (fun x v => Host.reduce IntOp.andi x v reducesTo_S1x160x500_S_d0_1_2 h_S_) main_v6 main_c_1
  let main_v8 : IVec S_ 1 := andi main_v3 main_v7
  let main_c_2 : IVec S_ 32 := constantI S_ 32 0#32
  let main_v9 : IVec S4000 32 := broadcastInDim S4000 ![] bcast_S_S4000 main_c_2
  let main_v10 : IVec S4000 1 := cmpi .sge main_arg2 main_v9
  let main_c_3 : IVec S_ 1 := constantI S_ 1 1#1
  let main_v11 : IVec S_ 1 := (fun x v => Host.reduce IntOp.andi x v reducesTo_S4000_S_d0 h_S_) main_v10 main_c_3
  let main_v12 : IVec S_ 1 := andi main_v8 main_v11
  let main_c_4 : IVec S_ 32 := constantI S_ 32 500#32
  let main_v13 : IVec S4000 32 := broadcastInDim S4000 ![] bcast_S_S4000 main_c_4
  let main_v14 : IVec S4000 1 := cmpi .slt main_arg2 main_v13
  let main_c_5 : IVec S_ 1 := constantI S_ 1 1#1
  let main_v15 : IVec S_ 1 := (fun x v => Host.reduce IntOp.andi x v reducesTo_S4000_S_d0 h_S_) main_v14 main_c_5
  fn_part1 (F := F) main_v12 main_v15
-- ==== Kernel.lean ====
abbrev S1x160x500 : Shape := ⟨3, ![1, 160, 500]⟩
abbrev S4000 : Shape := ⟨1, ![4000]⟩
abbrev S160x500 : Shape := ⟨2, ![160, 500]⟩
abbrev S_ : Shape := ⟨0, ![]⟩
abbrev S500x8 : Shape := ⟨2, ![500, 8]⟩
abbrev S8x500 : Shape := ⟨2, ![8, 500]⟩
abbrev S500x500 : Shape := ⟨2, ![500, 500]⟩
abbrev S1x500 : Shape := ⟨2, ![1, 500]⟩
abbrev S500 : Shape := ⟨1, ![500]⟩

abbrev nBuf : Space → Nat
  | .hbm => 17
  | .vmem => 4
  | .smem => 0
  | _ => 0

abbrev bufTy : (tb : Table) → Fin (tcTables nBuf tb) → BufTy
  | .hbm, ⟨0, _⟩ => ⟨S1x160x500, .f32⟩
  | .hbm, ⟨1, _⟩ => ⟨S1x160x500, .f32⟩
  | .hbm, ⟨2, _⟩ => ⟨S4000, .i32⟩
  | .hbm, ⟨3, _⟩ => ⟨S160x500, .f32⟩
  | .hbm, ⟨4, _⟩ => ⟨S160x500, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S4000, .i32⟩
  | .hbm, ⟨9, _⟩ => ⟨S4000, .i32⟩
  | .hbm, ⟨10, _⟩ => ⟨S_, .i32⟩
  | .hbm, ⟨11, _⟩ => ⟨S4000, .i32⟩
  | .hbm, ⟨12, _⟩ => ⟨S4000, .i32⟩
  | .hbm, ⟨13, _⟩ => ⟨S500x8, .i32⟩
  | .hbm, ⟨14, _⟩ => ⟨S8x500, .i32⟩
  | .hbm, ⟨15, _⟩ => ⟨S160x500, .f32⟩
  | .hbm, ⟨16, _⟩ => ⟨S1x160x500, .f32⟩
  | .local _ .vmem, ⟨0, _⟩ => ⟨S160x500, .f32⟩
  | .local _ .vmem, ⟨1, _⟩ => ⟨S160x500, .f32⟩
  | .local _ .vmem, ⟨2, _⟩ => ⟨S8x500, .i32⟩
  | .local _ .vmem, ⟨3, _⟩ => ⟨S160x500, .f32⟩
  | _, _ => ⟨S1x160x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_c : Ref sig .tc := ⟨.hbm, 5, rfl⟩
abbrev main_call0_c_0 : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S160x500 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S160x500 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x500 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S160x500 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S1x160x500_S160x500 : S1x160x500.ShapeCasts S160x500
  bcast_S_S4000 : S_.BroadcastsInDim S4000 (![] : Fin 0 → Fin S4000.rank)
  shapeCasts_S4000_S500x8 : S4000.ShapeCasts S500x8
  transposes_S500x8_S8x500_1_0 : S500x8.Transposes [1, 0] S8x500
  bcast_S160x500_S1x160x500_1_2 : S160x500.BroadcastsInDim S1x160x500 (![1, 2] : Fin 2 → Fin S1x160x500.rank)
  inb_S160x500_S160x500_0_0 : ∀ a, (![0, 0] : Fin 2 → Nat) a + S160x500.size a ≤ S160x500.size a
  h_S160x500 : 0 < S160x500.numel
  shapeCasts_S160x500_S160x500 : S160x500.ShapeCasts S160x500
  bitsLt_bf16_f32 : FTy.bits .bf16 < FTy.bits .f32
  iota_S500x500_d0_w32 : S500x500.Iotas .tc 32 [0]
  inb_S8x500_S1x500_0_0 : ∀ a, (![0, 0] : Fin 2 → Nat) a + S1x500.size a ≤ S8x500.size a
  h_S1x500 : 0 < S1x500.numel
  shapeCasts_S1x500_S500 : S1x500.ShapeCasts S500
  shapeCasts_S500_S1x500 : S500.ShapeCasts S1x500
  broadcasts_S1x500_S500x500 : S1x500.Broadcasts S500x500
  natLt_1_32 : 1 < 32
  inb_S8x500_S1x500_1_0 : ∀ a, (![1, 0] : Fin 2 → Nat) a + S1x500.size a ≤ S8x500.size a
  inb_S8x500_S1x500_2_0 : ∀ a, (![2, 0] : Fin 2 → Nat) a + S1x500.size a ≤ S8x500.size a
  inb_S8x500_S1x500_3_0 : ∀ a, (![3, 0] : Fin 2 → Nat) a + S1x500.size a ≤ S8x500.size a
  inb_S8x500_S1x500_4_0 : ∀ a, (![4, 0] : Fin 2 → Nat) a + S1x500.size a ≤ S8x500.size a
  inb_S8x500_S1x500_5_0 : ∀ a, (![5, 0] : Fin 2 → Nat) a + S1x500.size a ≤ S8x500.size a
  inb_S8x500_S1x500_6_0 : ∀ a, (![6, 0] : Fin 2 → Nat) a + S1x500.size a ≤ S8x500.size a
  inb_S8x500_S1x500_7_0 : ∀ a, (![7, 0] : Fin 2 → Nat) a + S1x500.size a ≤ S8x500.size a
  dot_S160x500_S500x500_S160x500_1_0_0_1_n_n_wf : DotDims.WF S160x500 S500x500 S160x500 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S160x500.size a ≤ S160x500.size a
  hwx0_0 : ∀ i : grid0.Coords, EltTy.bits .f32 = 32 ∨ (Rect.block (s := S160x500) S160x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S160x500.size a ≤ S160x500.size a
  hwx0_1 : ∀ i : grid0.Coords, EltTy.bits .f32 = 32 ∨ (Rect.block (s := S160x500) S160x500.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x500.size a ≤ S8x500.size a
  hwx0_2 : ∀ i : grid0.Coords, EltTy.bits .i32 = 32 ∨ (Rect.block (s := S8x500) S8x500.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S160x500.size a ≤ S160x500.size a
  hwx0_3 : ∀ i : grid0.Coords, EltTy.bits .f32 = 32 ∨ (Rect.block (s := S160x500) S160x500.size (cc0_transform_3 i) (hinb0_3 i)).WholeWords (EltTy.packing .f32)

variable [Facts₀]

def dot_S160x500_S500x500_S160x500_1_0_0_1_n_n : DotDims S160x500 S500x500 S160x500 where
  lhsContracting := [1]
  rhsContracting := [0]
  lhsNonContracting := [0]
  rhsNonContracting := [1]
  lhsBatch := []
  rhsBatch := []
  wf := dot_S160x500_S500x500_S160x500_1_0_0_1_n_n_wf

abbrev win0_0 : Pipeline.Window sig grid0 :=
  Pipeline.Window.ofSpec (Memref.whole main_call0_v0) S160x500.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S160x500.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S8x500.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5) S160x500.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x160x500 : Shape := ⟨3, ![1, 160, 500]⟩
abbrev S4000 : Shape := ⟨1, ![4000]⟩
abbrev S_ : Shape := ⟨0, ![]⟩
abbrev S4000x1 : Shape := ⟨2, ![4000, 1]⟩
abbrev S1 : Shape := ⟨1, ![1]⟩
abbrev S1x1 : Shape := ⟨2, ![1, 1]⟩
abbrev S1x160x4000 : Shape := ⟨3, ![1, 160, 4000]⟩
abbrev S1x160x500x8 : Shape := ⟨4, ![1, 160, 500, 8]⟩
abbrev S1x160x500x1 : Shape := ⟨4, ![1, 160, 500, 1]⟩

abbrev nBuf : Space → Nat
  | .hbm => 35
  | .vmem => 0
  | .smem => 0
  | _ => 0

abbrev bufTy : (tb : Table) → Fin (tcTables nBuf tb) → BufTy
  | .hbm, ⟨0, _⟩ => ⟨S1x160x500, .f32⟩
  | .hbm, ⟨1, _⟩ => ⟨S1x160x500, .f32⟩
  | .hbm, ⟨2, _⟩ => ⟨S4000, .i32⟩
  | .hbm, ⟨3, _⟩ => ⟨S_, .i32⟩
  | .hbm, ⟨4, _⟩ => ⟨S4000, .i32⟩
  | .hbm, ⟨5, _⟩ => ⟨S4000, .i1⟩
  | .hbm, ⟨6, _⟩ => ⟨S_, .i32⟩
  | .hbm, ⟨7, _⟩ => ⟨S4000, .i32⟩
  | .hbm, ⟨8, _⟩ => ⟨S4000, .i32⟩
  | .hbm, ⟨9, _⟩ => ⟨S4000, .i32⟩
  | .hbm, ⟨10, _⟩ => ⟨S4000x1, .i32⟩
  | .hbm, ⟨11, _⟩ => ⟨S1, .i32⟩
  | .hbm, ⟨12, _⟩ => ⟨S_, .i32⟩
  | .hbm, ⟨13, _⟩ => ⟨S4000x1, .i32⟩
  | .hbm, ⟨14, _⟩ => ⟨S4000x1, .i1⟩
  | .hbm, ⟨15, _⟩ => ⟨S1x1, .i32⟩
  | .hbm, ⟨16, _⟩ => ⟨S4000x1, .i32⟩
  | .hbm, ⟨17, _⟩ => ⟨S4000x1, .i1⟩
  | .hbm, ⟨18, _⟩ => ⟨S4000x1, .i1⟩
  | .hbm, ⟨19, _⟩ => ⟨S_, .i1⟩
  | .hbm, ⟨20, _⟩ => ⟨S4000, .i1⟩
  | .hbm, ⟨21, _⟩ => ⟨S1x160x4000, .f32⟩
  | .hbm, ⟨22, _⟩ => ⟨S1x160x4000, .i1⟩
  | .hbm, ⟨23, _⟩ => ⟨S_, .f32⟩
  | .hbm, ⟨24, _⟩ => ⟨S1x160x4000, .f32⟩
  | .hbm, ⟨25, _⟩ => ⟨S1x160x4000, .f32⟩
  | .hbm, ⟨26, _⟩ => ⟨S1x160x500x8, .f32⟩
  | .hbm, ⟨27, _⟩ => ⟨S1x160x500x1, .f32⟩
  | .hbm, ⟨28, _⟩ => ⟨S1x160x500x8, .f32⟩
  | .hbm, ⟨29, _⟩ => ⟨S1x160x500x8, .f32⟩
  | .hbm, ⟨30, _⟩ => ⟨S_, .f32⟩
  | .hbm, ⟨31, _⟩ => ⟨S1x160x500, .f32⟩
  | .hbm, ⟨32, _⟩ => ⟨S_, .f32⟩
  | .hbm, ⟨33, _⟩ => ⟨S1x160x500, .f32⟩
  | .hbm, ⟨34, _⟩ => ⟨S1x160x500, .f32⟩
  | _, _ => ⟨S1x160x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_cst : Ref sig .tc := ⟨.hbm, 30, rfl⟩
abbrev main_v5 : Ref sig .tc := ⟨.hbm, 31, rfl⟩
abbrev main_cst_0 : Ref sig .tc := ⟨.hbm, 32, rfl⟩
abbrev main_v6 : Ref sig .tc := ⟨.hbm, 33, rfl⟩
abbrev main_v7 : Ref sig .tc := ⟨.hbm, 34, rfl⟩

abbrev nD : Nat := 1
abbrev τ : Topo := Topo.v7x

variable {F : FTy → Type} [FloatOps F]

class Facts₀ : Prop where
  bcast_S_S4000 : S_.BroadcastsInDim S4000 (![] : Fin 0 → Fin S4000.rank)
  bcast_S4000_S4000x1_0 : S4000.BroadcastsInDim S4000x1 (![0] : Fin 1 → Fin S4000x1.rank)
  bcast_S_S4000x1 : S_.BroadcastsInDim S4000x1 (![] : Fin 0 → Fin S4000x1.rank)
  bcast_S1_S1x1_1 : S1.BroadcastsInDim S1x1 (![1] : Fin 1 → Fin S1x1.rank)
  bcast_S1x1_S4000x1_0_1 : S1x1.BroadcastsInDim S4000x1 (![0, 1] : Fin 2 → Fin S4000x1.rank)
  reducesTo_S4000x1_S4000_d1 : S4000x1.ReducesTo [1] S4000
  h_S_ : 0 < S_.numel
  bcast_S4000_S1x160x4000_2 : S4000.BroadcastsInDim S1x160x4000 (![2] : Fin 1 → Fin S1x160x4000.rank)
  bcast_S_S1x160x4000 : S_.BroadcastsInDim S1x160x4000 (![] : Fin 0 → Fin S1x160x4000.rank)
  shapeCasts_S1x160x4000_S1x160x500x8 : S1x160x4000.ShapeCasts S1x160x500x8
  bcast_S1x160x500_S1x160x500x1_0_1_2 : S1x160x500.BroadcastsInDim S1x160x500x1 (![0, 1, 2] : Fin 3 → Fin S1x160x500x1.rank)
  bcast_S1x160x500x1_S1x160x500x8_0_1_2_3 : S1x160x500x1.BroadcastsInDim S1x160x500x8 (![0, 1, 2, 3] : Fin 4 → Fin S1x160x500x8.rank)
  reducesTo_S1x160x500x8_S1x160x500_d3 : S1x160x500x8.ReducesTo [3] S1x160x500
  bcast_S_S1x160x500 : S_.BroadcastsInDim S1x160x500 (![] : Fin 0 → Fin S1x160x500.rank)
  gather_S1x160x500_S4000x1_S1x160x4000_01_2_n_n_2_1_11601_wf : GatherDims.WF S1x160x500 S4000x1 S1x160x4000 [0, 1] [2] [] [2] [] 1 ![1, 160, 1]

variable [Facts₀]

def gather_S1x160x500_S4000x1_S1x160x4000_01_2_n_n_2_1_11601 : GatherDims S1x160x500 S4000x1 S1x160x4000 where
  offsetDims := [0, 1]
  collapsedSliceDims := [2]
  operandBatchingDims := []
  startIndicesBatchingDims := []
  startIndexMap := [2]
  indexVectorDim := 1
  sliceSizes := ![1, 160, 1]
  wf := gather_S1x160x500_S4000x1_S1x160x4000_01_2_n_n_2_1_11601_wf

class Facts : Prop extends Facts₀ where

variable [Facts]
-- ==== Proof.Spec.lean ====
/-
  What both programs compute, stated once, over the argument arrays alone.

  feat1, feat2 : [1, 160, 500] extended reals; inds : [4000] 32-bit words, read as 500 points with 8 neighbour slots
  each: slot j of point n is entry 8·n + j, and it names column `nb inds n j` of feat2.

  The reference form: out[0, c, n] = (∑ over the 8 slots j of feat1[0, c, n] · feat2[0, c, nb n j]) · (1/8).
  The kernel form:    out[0, c, n] = feat1[0, c, n] · (∑ over the 500 columns k of feat2[0, c, k] · cnt n k) · (1/8),
  where cnt n k is the number of slots of point n that name column k.

  On finite features the two agree: ∑_k x_k · #{j : nb j = k} = ∑_j x_(nb j), and a finite factor distributes over a
  finite sum of finite terms.
-/
import Idealize.ShloMosaic.PureOps.Ideal
import Idealize.ShloMosaic.Lib.ValueIdx

noncomputable section

open scoped BigOperators

namespace Cert.Spec

open Idealize.ShloMosaic Idealize.ShloMosaic.ValueIdx

/-- The feature arrays' shape. -/
abbrev SF : Shape := ⟨3, ![1, 160, 500]⟩
/-- The index array's shape. -/
abbrev SI : Shape := ⟨1, ![4000]⟩

abbrev Feat := SF.Idx → EReal
abbrev Inds := SI.Idx → BitVec 32

/-- Neighbour slot `j` of point `n` is entry `8·n + j` of the index array. -/
def slot (n : Fin 500) (j : Fin 8) : SI.Idx := ix1 (⟨8 * n.val + j.val, by omega⟩ : Fin 4000)

/-- The column of feat2 that slot `j` of point `n` names (the word read as a natural number, capped at the last column). -/
def nb (inds : Inds) (n : Fin 500) (j : Fin 8) : Fin 500 := ⟨min (inds (slot n j)).toNat 499, by omega⟩

/-- The inputs the claim speaks of: every feature entry a real number, every index word a column number. -/
def Adm (x1 x2 : Feat) (inds : Inds) : Prop :=
  (∀ i, ∃ r : ℝ, x1 i = (r : EReal)) ∧ (∀ i, ∃ r : ℝ, x2 i = (r : EReal)) ∧ ∀ q, (inds q).toNat < 500

/-- The reference form at coordinates. -/
def Gat (x1 x2 : Feat) (inds : Inds) (a : Fin 1) (c : Fin 160) (n : Fin 500) : EReal :=
  (∑ j : Fin 8, x1 (ix3 a c n) * x2 (ix3 a c (nb inds n j))) * (((1 / 8 : ℝ) : ℝ) : EReal)

/-- The reference form: the mean over a point's 8 neighbour slots of feat1 at the point times feat2 at the neighbour. -/
def G (x1 x2 : Feat) (inds : Inds) : Feat := fun i => Gat x1 x2 inds (i 0) (i 1) (i 2)

/-- How many of point `n`'s slots name column `k`. -/
def cnt (inds : Inds) (n k : Fin 500) : ℝ := ∑ j : Fin 8, if nb inds n j = k then (1 : ℝ) else 0

/-- The kernel form at coordinates. -/
def Kat (x1 x2 : Feat) (inds : Inds) (a : Fin 1) (c : Fin 160) (n : Fin 500) : EReal :=
  x1 (ix3 a c n) * (∑ k : Fin 500, x2 (ix3 a c k) * ((cnt inds n k : ℝ) : EReal)) * (((1 / 8 : ℝ) : ℝ) : EReal)

/-- The kernel form: feat1 times the count-weighted sum of a row of feat2, over 8. -/
def Kform (x1 x2 : Feat) (inds : Inds) : Feat := fun i => Kat x1 x2 inds (i 0) (i 1) (i 2)

/-- A finite sum of real numbers, read in the extended reals, is the sum of the terms read there. -/
theorem coe_sum {ι : Type} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- Weighting each column by the number of slots that name it sums the named columns: ∑_k x_k · #{j : ν j = k} = ∑_j x_(ν j). -/
theorem sum_mul_count (x : Fin 500 → ℝ) (ν : Fin 8 → Fin 500) :
    ∑ k : Fin 500, x k * ∑ j : Fin 8, (if ν j = k then (1 : ℝ) else 0) = ∑ j : Fin 8, x (ν j) := by
  simp_rw [Finset.mul_sum]
  rw [Finset.sum_comm]
  refine Finset.sum_congr rfl fun j _ => ?_
  simp only [mul_ite, mul_one, mul_zero, Finset.sum_ite_eq, Finset.mem_univ, if_true]

/-- The law over the reals: a factor times the count-weighted row sum, over 8, is the mean of the factor times the named columns. -/
theorem real_law (r : ℝ) (x : Fin 500 → ℝ) (ν : Fin 8 → Fin 500) :
    r * (∑ k : Fin 500, x k * ∑ j : Fin 8, (if ν j = k then (1 : ℝ) else 0)) * (1 / 8)
      = (∑ j : Fin 8, r * x (ν j)) * (1 / 8) := by
  rw [sum_mul_count, Finset.mul_sum]

/-- On admissible inputs the two forms are one function: every entry involved is a real number, so the law over the
    reals carries over to the extended reals. -/
theorem kform_eq_G (x1 x2 : Feat) (inds : Inds) (h : Adm x1 x2 inds) : Kform x1 x2 inds = G x1 x2 inds := by
  obtain ⟨h1, h2, _⟩ := h
  choose r1 hr1 using h1
  choose r2 hr2 using h2
  funext i
  unfold Kform G Kat Gat
  simp only [hr1, hr2, ← EReal.coe_mul]
  rw [← coe_sum, ← coe_sum, ← EReal.coe_mul, ← EReal.coe_mul, ← EReal.coe_mul]
  exact congrArg _ (real_law _ (fun k => r2 (ix3 (i 0) (i 1) k)) (fun j => nb inds (i 2) j))

end Cert.Spec

end
-- ==== Proof.PreDecode.lean ====
/-
  The printed precondition read back: `jnp.all` of |x| < +inf over each feature array says every entry is a real
  number, and `jnp.all(inds >= 0)`, `jnp.all(inds < 500)` say every index word, read as a natural number, is below 500.
-/
import proofs.«406279_j25383256719963_3_alg».proof.Pre_finite_inputs
import proofs.«406279_j25383256719963_3_alg».proof.Proof.Gen.Pre_finite_inputs
import proofs.«406279_j25383256719963_3_alg».proof.Proof.Spec
import Idealize.ShloMosaic.Lib.ReduceAll
import Idealize.ShloMosaic.Lib.Affine

noncomputable section

namespace Cert.PreDecode

open Idealize.ShloMosaic Idealize.ShloMosaic.ValueIdx Cert.Pre_finite_inputs Cert.Pre_finite_inputs.Gen

/-- The scalar shape has one index. -/
instance : Subsingleton S_.Idx := ⟨fun a b => funext fun d => d.elim0⟩

/-- An extended real whose absolute value max x (−x) lies strictly below the f32 pattern of +inf is a real number:
    of the two infinities each has absolute value +inf. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  induction x using EReal.rec with
  | bot => simp [Ideal.cmp] at h
  | top => simp [Ideal.cmp] at h
  | coe r => exact ⟨r, rfl⟩

/-- A 32-bit word that is at least 0 and below 500 as a signed number is below 500 as a natural number. -/
theorem toNat_lt_of_signed (v : BitVec 32) (h0 : IntOp.cmpi .sge v 0#32 = 1#1) (h5 : IntOp.cmpi .slt v 500#32 = 1#1) :
    v.toNat < 500 := by
  have a1 : (0#32 : BitVec 32).toInt ≤ v.toInt := IntOp.cmpi_sge.1 h0
  have a2 : v.toInt < (500#32 : BitVec 32).toInt := IntOp.cmpi_slt.1 h5
  have z0 : (0#32 : BitVec 32).toInt = 0 := by decide
  have z5 : (500#32 : BitVec 32).toInt = 500 := by decide
  rw [z0] at a1; rw [z5] at a2
  have c := BitVec.toInt_eq_toNat_cond v
  have := v.isLt
  omega

/-- The precondition all ones makes the inputs admissible: its four conjuncts are split, each `all` gives its
    elementwise fact, and the elementwise facts are the two scalar lemmas above. -/
theorem adm_of_pre (x1 x2 : Cert.Spec.Feat) (inds : Cert.Spec.Inds)
    (h : Cert.Pre_finite_inputs.fn (F := Ideal) x1 x2 inds = fun _ => 1#1) : Cert.Spec.Adm x1 x2 inds := by
  have h0 := congrFun h ix0
  dsimp only [fn, fn_part1] at h0
  obtain ⟨h12, h15⟩ := IntOp.andi_eq_one.1 h0
  obtain ⟨h8, h11⟩ := IntOp.andi_eq_one.1 h12
  obtain ⟨h3, h7⟩ := IntOp.andi_eq_one.1 h8
  refine ⟨fun i => ?_, fun i => ?_, fun q => ?_⟩
  · exact real_of_abs_lt_inf _ (Host.reduce_andi_all _ _ _ _ _ h3 i)
  · exact real_of_abs_lt_inf _ (Host.reduce_andi_all _ _ _ _ _ h7 i)
  · exact toNat_lt_of_signed _ (Host.reduce_andi_all _ _ _ _ _ h11 q) (Host.reduce_andi_all _ _ _ _ _ h15 q)

end Cert.PreDecode

end
-- ==== Proof.RefTerm.lean ====
/-
  The reference program's result as ONE pure term of its three argument arrays: the operations of its @main composed in
  order. `jnp.take` along the point axis prints as: indices below zero moved up by 500 (`wrapped`), a test that the
  moved index lies in [0, 499] (`inRange`), the gather at the moved index, and a select that keeps the gathered value
  where the test holds and a not-a-number pattern elsewhere (`taken`). Then the [1,160,4000] array is read as
  [1,160,500,8], multiplied by feat1 broadcast along the new last axis, summed over that axis from zero, divided by 8.
-/
import proofs.«406279_j25383256719963_3_alg».proof.ReferenceIdeal
import proofs.«406279_j25383256719963_3_alg».proof.Proof.Gen.ReferenceIdeal

noncomputable section

namespace Cert.ReferenceIdeal.Hand

open Cert.ReferenceIdeal Cert.ReferenceIdeal.Gen Idealize.ShloMosaic

variable {F : FTy → Type} [FloatOps F]

/-- `where(inds < 0, inds + 500, inds)`, as a [4000, 1] column of start indices. -/
def wrapped (inds : IVec S4000 32) : IVec S4000x1 32 :=
  broadcastInDim S4000x1 ![0] bcast_S4000_S4000x1_0
    (select (cmpi .slt inds (broadcastInDim S4000 ![] bcast_S_S4000 (constantI S_ 32 0#32)))
      (addi inds (broadcastInDim S4000 ![] bcast_S_S4000 (constantI S_ 32 500#32)))
      inds)

/-- Per entry: the moved index is at least 0 and at most 499. -/
def inRange (inds : IVec S4000 32) : IVec S4000 1 :=
  Host.reduce IntOp.andi
    (andi (cmpi .sge (wrapped inds) (broadcastInDim S4000x1 ![] bcast_S_S4000x1 (constantI S_ 32 0#32)))
      (cmpi .sle (wrapped inds)
        (broadcastInDim S4000x1 ![0, 1] bcast_S1x1_S4000x1_0_1 (broadcastInDim S1x1 ![1] bcast_S1_S1x1_1 (constantI S1 32 499#32)))))
    (constantI S_ 1 1#1) reducesTo_S4000x1_S4000_d1 h_S_

/-- `jnp.take(feat2, inds, axis=2)`: feat2's column at the moved index where that is in range, the fill pattern elsewhere. -/
def taken (x2 : FVec F S1x160x500 .f32) (inds : IVec S4000 32) : FVec F S1x160x4000 .f32 :=
  select (broadcastInDim S1x160x4000 ![2] bcast_S4000_S1x160x4000_2 (inRange inds))
    (Host.gather gather_S1x160x500_S4000x1_S1x160x4000_01_2_n_n_2_1_11601 x2 (wrapped inds))
    (broadcastInDim S1x160x4000 ![] bcast_S_S1x160x4000 (constant S_ .f32 0x7FC00000#32))

/-- The reference's result: the sum over the 8 neighbour slots of feat1 times the taken feat2, divided by 8. -/
def Rterm (x1 x2 : FVec F S1x160x500 .f32) (inds : IVec S4000 32) : FVec F S1x160x500 .f32 :=
  Host.divf
    (Host.reduceAdd
      (mulf
        (broadcastInDim S1x160x500x8 ![0, 1, 2, 3] bcast_S1x160x500x1_S1x160x500x8_0_1_2_3
          (broadcastInDim S1x160x500x1 ![0, 1, 2] bcast_S1x160x500_S1x160x500x1_0_1_2 x1))
        (shapeCast S1x160x500x8 (taken x2 inds) shapeCasts_S1x160x4000_S1x160x500x8))
      (constant S_ .f32 0x00000000#32) reducesTo_S1x160x500x8_S1x160x500_d3 h_S_)
    (broadcastInDim S1x160x500 ![] bcast_S_S1x160x500 (constant S_ .f32 0x41000000#32))

end Cert.ReferenceIdeal.Hand

end
-- ==== Proof.RefRun.lean ====
/-
  The reference program's run: @main is a straight line of host operations (the two outlined functions inlined at their
  calls), so every execution ends with each buffer at the operations' composed term of the launch contents; at the result
  buffer that term is `Rterm`, and no operation writes an argument.
-/
import proofs.«406279_j25383256719963_3_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference's 33 operations in program order. The first 23 are the index-taking function's, written over the
    buffers of its one call, with feat2 and the index array as its operands: the wrap of negative indices (a zero and a
    500 broadcast, the comparison, the sum, and the selecting function's one select in the place of its call), the
    column of start indices, the range test (both bounds, their conjunction, the and-reduction over the unit axis), the
    gather, and the select against the fill pattern. The last ten are @main's own: the reshape to four axes, feat1
    broadcast twice, the product, the sum over the last axis from zero, and the division by 8. -/
abbrev ops : List (HloOp τ sig (Elt F)) :=
  [ TRef.nullary main_call0.c (constantI S_ 32 0#32),
    TRef.unary main_call0.c main_call0.v0 (broadcastInDim S4000 ![] bcast_S_S4000),
    TRef.binary (.of main_arg2) main_call0.v0 main_call0.v1 (cmpi .slt),
    TRef.nullary main_call0.c_0 (constantI S_ 32 500#32),
    TRef.unary main_call0.c_0 main_call0.v2 (broadcastInDim S4000 ![] bcast_S_S4000),
    TRef.binary (.of main_arg2) main_call0.v2 main_call0.v3 addi,
    TRef.ternary main_call0.v1 main_call0.v3 (.of main_arg2) main_call0.call0.v0 select,
    TRef.unary main_call0.call0.v0 main_call0.v5 (broadcastInDim S4000x1 ![0] bcast_S4000_S4000x1_0),
    TRef.nullary main_call0.c_1 (constantI S1 32 499#32),
    TRef.nullary main_call0.c_2 (constantI S_ 32 0#32),
    TRef.unary main_call0.c_2 main_call0.v6 (broadcastInDim S4000x1 ![] bcast_S_S4000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4000x1 ![0, 1] bcast_S1x1_S4000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4000x1_S4000_d1 h_S_),
    TRef.binary (.of main_arg1) main_call0.v5 main_call0.v13 (fun x i => Host.gather gather_S1x160x500_S4000x1_S1x160x4000_01_2_n_n_2_1_11601 x i),
    TRef.unary main_call0.v12 main_call0.v14 (broadcastInDim S1x160x4000 ![2] bcast_S4000_S1x160x4000_2),
    TRef.nullary main_call0.cst (constant S_ .f32 0x7FC00000#32),
    TRef.unary main_call0.cst main_call0.v15 (broadcastInDim S1x160x4000 ![] bcast_S_S1x160x4000),
    TRef.ternary main_call0.v14 main_call0.v13 main_call0.v15 main_call0.v16 select,
    reshape main_v0 main_v1 rfl shapeCasts_S1x160x4000_S1x160x500x8,
    unary main_arg0 main_v2 (broadcastInDim S1x160x500x1 ![0, 1, 2] bcast_S1x160x500_S1x160x500x1_0_1_2 : (⟨S1x160x500, .f32⟩ : BufTy).Contents (Elt F) → (⟨S1x160x500x1, .f32⟩ : BufTy).Contents (Elt F)),
    unary main_v2 main_v3 (broadcastInDim S1x160x500x8 ![0, 1, 2, 3] bcast_S1x160x500x1_S1x160x500x8_0_1_2_3 : (⟨S1x160x500x1, .f32⟩ : BufTy).Contents (Elt F) → (⟨S1x160x500x8, .f32⟩ : BufTy).Contents (Elt F)),
    binary main_v3 main_v1 main_v4 (mulf : (⟨S1x160x500x8, .f32⟩ : BufTy).Contents (Elt F) → (⟨S1x160x500x8, .f32⟩ : BufTy).Contents (Elt F) → (⟨S1x160x500x8, .f32⟩ : BufTy).Contents (Elt F)),
    nullary main_cst (constant S_ .f32 0x00000000#32),
    binary main_v4 main_cst main_v5 ((fun x v => Host.reduceAdd x v reducesTo_S1x160x500x8_S1x160x500_d3 h_S_) : (⟨S1x160x500x8, .f32⟩ : BufTy).Contents (Elt F) → (⟨S_, .f32⟩ : BufTy).Contents (Elt F) → (⟨S1x160x500, .f32⟩ : BufTy).Contents (Elt F)),
    nullary main_cst_0 (constant S_ .f32 0x41000000#32),
    unary main_cst_0 main_v6 (broadcastInDim S1x160x500 ![] bcast_S_S1x160x500 : (⟨S_, .f32⟩ : BufTy).Contents (Elt F) → (⟨S1x160x500, .f32⟩ : BufTy).Contents (Elt F)),
    binary main_v5 main_v6 main_v7 (Host.divf : (⟨S1x160x500, .f32⟩ : BufTy).Contents (Elt F) → (⟨S1x160x500, .f32⟩ : BufTy).Contents (Elt F) → (⟨S1x160x500, .f32⟩ : BufTy).Contents (Elt F)) ]

-- the chain of thirty-three steps is re-associated, step inside step
set_option maxRecDepth 2048 in
/-- @main is that straight line: with the two functions' bodies put in the place of their calls and sequencing
    re-associated, both sides are the same chain of single steps. -/
theorem main_eq (c : Dev nD) : main (F := F) c = seq ops := by
  simp only [main, fn_take.body, fn_where.body, seq, bind_assoc, pure_bind]

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    reshape_bufs_sub .., unary_bufs_sub .., unary_bufs_sub .., binary_bufs_sub .., nullary_bufs_sub .., binary_bufs_sub ..,
    nullary_bufs_sub .., unary_bufs_sub .., binary_bufs_sub ..⟩

attribute [local irreducible] Host.reduce Host.gather Host.reduceAdd Host.divf in
set_option maxRecDepth 8192 in
/-- The fold of the operations at the result buffer is `Rterm` of the contents at the three arguments: each operation's
    result is read at its own buffer, the transports along the buffers' types are identities at these literal buffers,
    and the reshape's transport along the equal element types is the identity. -/
theorem result_eq (V : Valuation τ sig (Elt F)) :
    after ops V (main_v7 : DevRef τ sig)
      = Rterm (V (main_arg0 : DevRef τ sig)) (V (main_arg1 : DevRef τ sig)) (V (main_arg2 : DevRef τ sig)) := by
  after_results_simp
  unfold Rterm taken inRange wrapped
  rfl

/-- Every weakly fair execution of the reference terminates with its result at `Rterm` of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7)
        = Rterm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v7).trans (result_eq _),
      (h c main_arg0).trans (by after_results_simp),
      (h c main_arg1).trans (by after_results_simp),
      (h c main_arg2).trans (by after_results_simp)⟩)
    (run_seq scopedRefs_eq scopedSems_eq defs main (fun _ => ops) main_eq (fun _ => ops_sub) m ρ)

end Cert.ReferenceIdeal.Hand

end
-- ==== Proof.RefValue.lean ====
/-
  The reference's term at an index, on admissible inputs: an index word in [0, 500) is not moved, passes the range test
  and is the column the gather reads, so entry (0, c, n) is the sum over the 8 slots of feat1 at the point times feat2 at
  the slot's column, from zero, divided by 8 — the specification's reference form.
-/
import proofs.«406279_j25383256719963_3_alg».proof.Proof.RefTerm
import proofs.«406279_j25383256719963_3_alg».proof.Proof.Spec
import Idealize.ShloMosaic.Lib.IdealHost
import Idealize.ShloMosaic.Lib.Pipeline.Value
import Idealize.ShloMosaic.Lib.StableHlo.Predicate

noncomputable section

namespace Cert.ReferenceIdeal.Hand

open Cert.ReferenceIdeal Cert.ReferenceIdeal.Gen Idealize.ShloMosaic Idealize.ShloMosaic.ValueIdx

/-! ## The gather at an index -/

/-- The reference's gather record, by a short name. -/
abbrev gd : GatherDims S1x160x500 S4000x1 S1x160x4000 := gather_S1x160x500_S4000x1_S1x160x4000_01_2_n_n_2_1_11601

/-- The reference's gather read at an index: offsets on the two leading axes, the collapsed point axis at the start
    index read signed and capped at the last column. -/
theorem gather_apply {α : Type} {w : Nat} (x : S1x160x500.Idx → α) (idx : IVec S4000x1 w)
    (a : Fin 1) (c : Fin 160) (q : Fin 4000) :
    Host.gather gather_S1x160x500_S4000x1_S1x160x4000_01_2_n_n_2_1_11601 x idx (ix3 a c q)
      = x (ix3 a c (⟨min (idx (ix2 q (0 : Fin 1))).toInt.toNat 499, by omega⟩ : Fin 500)) := by
  unfold Host.gather
  refine congrArg x (funext fun e => Fin.ext ?_)
  have hb : ∀ e : Fin 3, gd.batchCoord (ix3 a c q) e = 0 := fun e =>
    GatherDims.batchCoord_eq_zero _ _ _ List.not_mem_nil
  match e with
  | ⟨0, _⟩ =>
    show gd.start (ix3 a c q) idx 0 + gd.batchCoord (ix3 a c q) 0 + gd.offCoord (ix3 a c q) 0 = a.val
    rw [hb 0]
    have hs : gd.start (ix3 a c q) idx 0 = 0 := by
      unfold GatherDims.start
      rw [dif_neg (by decide)]
    have ho : gd.offCoord (ix3 a c q) 0 = a.val := by
      unfold GatherDims.offCoord
      rw [dif_pos (by decide)]
      rfl
    rw [hs, ho]; omega
  | ⟨1, _⟩ =>
    show gd.start (ix3 a c q) idx 1 + gd.batchCoord (ix3 a c q) 1 + gd.offCoord (ix3 a c q) 1 = c.val
    rw [hb 1]
    have hs : gd.start (ix3 a c q) idx 1 = 0 := by
      unfold GatherDims.start
      rw [dif_neg (by decide)]
    have ho : gd.offCoord (ix3 a c q) 1 = c.val := by
      unfold GatherDims.offCoord
      rw [dif_pos (by decide)]
      rfl
    rw [hs, ho]; omega
  | ⟨2, _⟩ =>
    show gd.start (ix3 a c q) idx 2 + gd.batchCoord (ix3 a c q) 2 + gd.offCoord (ix3 a c q) 2
      = min (idx (ix2 q (0 : Fin 1))).toInt.toNat 499
    rw [hb 2, GatherDims.offCoord_eq_zero _ _ _ (by decide)]
    simp only [Nat.add_zero]
    unfold GatherDims.start
    rw [dif_pos (by decide)]
    have hsi : gd.siIdx (ix3 a c q) ⟨List.idxOf (2 : Fin 3) gd.startIndexMap,
        List.idxOf_lt_length_iff.2 (by decide)⟩ = ix2 q (0 : Fin 1) := by
      funext b; refine Fin.ext ?_
      match b with
      | ⟨0, _⟩ => rfl
      | ⟨1, _⟩ => rfl
    rw [hsi]
    rfl

/-! ## The moved index, the range test and the taken array, where the index word is a column number -/

open Idealize.ShloMosaic.StableHlo.Predicate in
/-- An index word below 500 is not moved. -/
theorem wrapped_apply (inds : IVec S4000 32) (q : Fin 4000) (hq : (inds (ix1 q)).toNat < 500) :
    wrapped inds (ix2 q (0 : Fin 1)) = inds (ix1 q) := by
  unfold wrapped
  refine (broadcastInDim_apply _ _ _ (ix2 q (0 : Fin 1)) (ix1 q) (fun e => by
    match e with
    | ⟨0, _⟩ => rfl)).trans ?_
  rw [select_apply]
  have hc : cmpi .slt inds (broadcastInDim S4000 ![] bcast_S_S4000 (constantI S_ 32 0#32)) (ix1 q) ≠ 1#1 := by
    show IntOp.cmpi .slt (inds (ix1 q)) 0#32 ≠ 1#1
    intro h1
    have := (slt_iff_toNat (a := inds (ix1 q)) (b := 0#32) (by omega) (by decide)).1 h1
    simp at this
  exact if_neg hc

/-- The column [4000, 1] reduced over its unit axis. -/
theorem reduces_S4000x1_S4000 : S4000x1.Reduces [1] S4000 := by decide

open Idealize.ShloMosaic.StableHlo.Predicate in
/-- An index word below 500 passes the range test. -/
theorem inRange_apply (inds : IVec S4000 32) (q : Fin 4000) (hq : (inds (ix1 q)).toNat < 500) :
    inRange inds (ix1 q) = 1#1 := by
  unfold inRange
  rw [Host.reduce_eq_fold_single IntOp.andi _ _ reducesTo_S4000x1_S4000_d1 reduces_S4000x1_S4000 h_S_ (ix1 q)]
  have hl : reduces_S4000x1_S4000.lift (ix1 q) (0 : Fin 1) = ix2 q (0 : Fin 1) := by
    funext b; refine Fin.ext ?_
    match b with
    | ⟨0, _⟩ => rfl
    | ⟨1, _⟩ => rfl
  show Finset.fold IntOp.andi (1#1)
    (fun k : Fin 1 => IntOp.andi (IntOp.cmpi .sge (wrapped inds (reduces_S4000x1_S4000.lift (ix1 q) k)) 0#32)
      (IntOp.cmpi .sle (wrapped inds (reduces_S4000x1_S4000.lift (ix1 q) k)) 499#32)) (Finset.univ : Finset (Fin 1)) = 1#1
  rw [Finset.univ_unique, Finset.fold_singleton]
  show IntOp.andi (IntOp.andi (IntOp.cmpi .sge (wrapped inds (reduces_S4000x1_S4000.lift (ix1 q) (0 : Fin 1))) 0#32)
      (IntOp.cmpi .sle (wrapped inds (reduces_S4000x1_S4000.lift (ix1 q) (0 : Fin 1))) 499#32)) 1#1 = 1#1
  rw [hl, wrapped_apply inds q hq]
  have h1 : IntOp.cmpi .sge (inds (ix1 q)) 0#32 = 1#1 :=
    (sge_iff_toNat (a := inds (ix1 q)) (b := 0#32) (by omega) (by decide)).2 (by simp)
  have h2 : IntOp.cmpi .sle (inds (ix1 q)) 499#32 = 1#1 :=
    (sle_iff_toNat (a := inds (ix1 q)) (b := 499#32) (by omega) (by decide)).2 (by simp; omega)
  rw [h1, h2]; decide

open Idealize.ShloMosaic.StableHlo.Predicate in
/-- Where the index word is below 500, the taken array holds feat2's column at that word. -/
theorem taken_apply (x2 : FVec Ideal S1x160x500 .f32) (inds : IVec S4000 32) (a : Fin 1) (c : Fin 160) (q : Fin 4000)
    (hq : (inds (ix1 q)).toNat < 500) :
    taken (F := Ideal) x2 inds (ix3 a c q) = x2 (ix3 a c (⟨min (inds (ix1 q)).toNat 499, by omega⟩ : Fin 500)) := by
  unfold taken
  rw [select_apply]
  have hm : broadcastInDim S1x160x4000 ![2] bcast_S4000_S1x160x4000_2 (inRange inds) (ix3 a c q) = 1#1 :=
    (broadcastInDim_apply _ _ _ (ix3 a c q) (ix1 q) (fun e => by
      match e with
      | ⟨0, _⟩ => rfl)).trans (inRange_apply inds q hq)
  rw [hm, select_one, gather_apply]
  refine congrArg (fun k => x2 (ix3 a c k)) (Fin.ext ?_)
  show min (wrapped inds (ix2 q (0 : Fin 1))).toInt.toNat 499 = min (inds (ix1 q)).toNat 499
  rw [wrapped_apply inds q hq, toInt_eq_toNat_of_lt (by omega), Int.toNat_natCast]

/-! ## The layout operations at an index, and the divisor -/

/-- The [1, 160, 500, 8] array reduced over its slot axis. -/
theorem reduces_S1x160x500x8_S1x160x500 : S1x160x500x8.Reduces [3] S1x160x500 := by decide

/-- The index over (a, c, n) with slot j inserted on the reduced axis is (a, c, n, j). -/
theorem lift_slot (a : Fin 1) (c : Fin 160) (n : Fin 500) (j : Fin 8) :
    reduces_S1x160x500x8_S1x160x500.lift (ix3 a c n) j = ix4 a c n j := by
  funext e; refine Fin.ext ?_
  match e with
  | ⟨0, _⟩ => rfl
  | ⟨1, _⟩ => rfl
  | ⟨2, _⟩ => rfl
  | ⟨3, _⟩ => rfl

/-- feat1 broadcast along a new unit axis and then along the 8 slots reads feat1 at the point, whatever the slot. -/
theorem feat1_bcast_apply {α : Type} (x1 : S1x160x500.Idx → α) (a : Fin 1) (c : Fin 160) (n : Fin 500) (j : Fin 8) :
    broadcastInDim S1x160x500x8 ![0, 1, 2, 3] bcast_S1x160x500x1_S1x160x500x8_0_1_2_3
      (broadcastInDim S1x160x500x1 ![0, 1, 2] bcast_S1x160x500_S1x160x500x1_0_1_2 x1) (ix4 a c n j) = x1 (ix3 a c n) := by
  refine (broadcastInDim_apply _ _ _ (ix4 a c n j) (ix4 a c n (0 : Fin 1)) (fun e => by
    match e with
    | ⟨0, _⟩ => show a.val = 0; omega
    | ⟨1, _⟩ => rfl
    | ⟨2, _⟩ => rfl
    | ⟨3, _⟩ => rfl)).trans ?_
  exact broadcastInDim_apply _ _ _ (ix4 a c n (0 : Fin 1)) (ix3 a c n) (fun e => by
    match e with
    | ⟨0, _⟩ => show a.val = 0; omega
    | ⟨1, _⟩ => rfl
    | ⟨2, _⟩ => rfl)

/-- The [1, 160, 4000] array read as [1, 160, 500, 8]: entry (a, c, n, j) is entry (a, c, 8·n + j). -/
theorem cast_apply {α : Type} (v : S1x160x4000.Idx → α) (a : Fin 1) (c : Fin 160) (n : Fin 500) (j : Fin 8) :
    shapeCast S1x160x500x8 v shapeCasts_S1x160x4000_S1x160x500x8 (ix4 a c n j)
      = v (ix3 a c (⟨8 * n.val + j.val, by omega⟩ : Fin 4000)) := by
  refine shapeCast_apply v _ (ix4 a c n j) _ ?_
  rw [Shape.rowMajor_val_three, Shape.rowMajor_val_four]
  show (a.val * 160 + c.val) * 4000 + (8 * n.val + j.val) = ((a.val * 160 + c.val) * 500 + n.val) * 8 + j.val
  omega

/-- The divisor's word is the real 8. -/
theorem ofBits_eight : Ideal.ofBits .f32 0x41000000#32 = ((8 : ℝ) : EReal) := by
  simp [Ideal.ofBits, Ideal.ieee, -EReal.coe_mul]; norm_num

/-! ## The reference's term is the reference form -/

/-- On admissible inputs the reference's term is the specification's reference form. -/
theorem rterm_eq (x1 x2 : Cert.Spec.Feat) (inds : Cert.Spec.Inds) (h : Cert.Spec.Adm x1 x2 inds) :
    Rterm (F := Ideal) x1 x2 inds = Cert.Spec.G x1 x2 inds := by
  funext i
  obtain ⟨a, c, n, rfl⟩ : ∃ (a : Fin 1) (c : Fin 160) (n : Fin 500), i = ix3 a c n := ⟨i 0, i 1, i 2, eq_ix3 i⟩
  unfold Rterm
  rw [hostDivf_apply, hostReduceAdd_apply,
    Ideal.hostReduceAdd_single reducesTo_S1x160x500x8_S1x160x500_d3 reduces_S1x160x500x8_S1x160x500]
  show Ideal.div (Ideal.ofBits .f32 0x00000000#32 + ∑ j : Fin 8, _) (Ideal.ofBits .f32 0x41000000#32)
    = Cert.Spec.Gat x1 x2 inds a c n
  rw [Ideal.ofBits_zero_f32, zero_add, ofBits_eight, Ideal.div_coe (by norm_num : (8 : ℝ) ≠ 0)]
  unfold Cert.Spec.Gat
  refine congrArg (· * (((1 / 8 : ℝ) : ℝ) : EReal)) (Finset.sum_congr rfl fun j _ => ?_)
  rw [lift_slot, mulf_apply, feat1_bcast_apply, cast_apply, taken_apply x2 inds a c _ (h.2.2 _)]
  rfl

end Cert.ReferenceIdeal.Hand

end
-- ==== Proof.KerTerm.lean ====
/-
  The kernel program's result as ONE pure term of its three argument arrays. Before the launch the host reads the two
  feature arrays as [160, 500], caps the indices into [0, 499], reads them as [500, 8] and transposes to [8, 500]
  (`idxT`: row j holds slot j of every point). The launch has one grid point and whole-array blocks, so the body sees
  these arrays themselves; it loads the 8 index rows one by one (`row`) and stores one [160, 500] value (`kblock`: the
  body's arithmetic, the generated payloads composed). After the launch the host puts a unit axis in front.
-/
import proofs.«406279_j25383256719963_3_alg».proof.Proof.Gen.KernelIdeal.Skeleton
import Idealize.ShloMosaic.Lib.ValueIdx

noncomputable section

namespace Cert.KernelIdeal.Hand

open Cert.KernelIdeal Cert.KernelIdeal.Gen Idealize.ShloMosaic Idealize.ShloMosaic.ValueIdx

variable {F : FTy → Type} [FloatOps F]

/-- The indices capped into [0, 499], read as [500, 8], transposed: entry (j, n) is slot j of point n. -/
def idxT (inds : IVec S4000 32) : IVec S8x500 32 :=
  transpose S8x500 [1, 0]
    (shapeCast S500x8
      (minsi (broadcastInDim S4000 ![] bcast_S_S4000 (constantI S_ 32 499#32))
        (maxsi (broadcastInDim S4000 ![] bcast_S_S4000 (constantI S_ 32 0#32)) inds))
      shapeCasts_S4000_S500x8)
    transposes_S500x8_S8x500_1_0

/-- Row `k` of an [8, 500] array as a [1, 500] vector: what the body's k-th index load reads. -/
def row (X : IVec S8x500 32) (k : Fin 8) : Vec F S1x500 .i32 := fun y => X (ix2 k (y 1))

/-- What the body stores, from the three arrays it is launched on. -/
def kblock (X0 X1 : FVec F S160x500 .f32) (X2 : IVec S8x500 32) : FVec F S160x500 .f32 :=
  k0_pay1 (k0_pay2 X0) (k0_pay3 X1) (iota .tc S500x500 32 [0] iota_S500x500_d0_w32)
    (k0_pay4 (row (F := F) X2 0) (row (F := F) X2 1) (row (F := F) X2 2) (row (F := F) X2 3))
    (row (F := F) X2 4) (row (F := F) X2 5) (row (F := F) X2 6) (row (F := F) X2 7)

/-- The kernel program's result. -/
def Kterm (x1 x2 : FVec F S1x160x500 .f32) (inds : IVec S4000 32) : FVec F S1x160x500 .f32 :=
  broadcastInDim S1x160x500 ![1, 2] bcast_S160x500_S1x160x500_1_2
    (kblock (shapeCast S160x500 x1 shapeCasts_S1x160x500_S160x500)
      (shapeCast S160x500 x2 shapeCasts_S1x160x500_S160x500) (idxT inds))

end Cert.KernelIdeal.Hand

end
-- ==== Proof.KerRun.lean ====
/-
  The kernel program's run, read off the generated frame: one grid point, every window's block the whole array, so the
  result array after the launch is what the body stores from the arrays it is launched on, and the host's last line puts
  the unit axis in front: the result buffer ends at `Kterm` of the arguments.
-/
import proofs.«406279_j25383256719963_3_alg».proof.Proof.KerTerm
import proofs.«406279_j25383256719963_3_alg».proof.Proof.Gen.KernelIdeal.Frame
import Idealize.ShloMosaic.Lib.Pipeline.Value
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]

/-! ## The body's loads and its one store -/

/-- The offsets [0, 0] are zero on every axis. -/
theorem zero_offsets : (![0, 0] : Fin 2 → Nat) = fun _ => 0 := funext fun a => by fin_cases a <;> rfl

/-- A load of the [1, 500] rectangle at offsets [k, 0] of an [8, 500] array reads its row `k`: the rectangle's one row
    sits at coordinate k + 1·0 and its column y at 0 + 1·y. -/
theorem ld_row (X : Vec F S8x500 .i32) (k : Fin 8) (off : Fin 2 → Nat) (h0 : off 0 = k.val) (h1 : off 1 = 0)
    (inb : ∀ a, off a + S1x500.size a ≤ S8x500.size a) :
    View.ld X (Rect.unit (s := S8x500) off S1x500.size inb) = row (F := F) X k := by
  funext y
  show X _ = X (ix2 k (y 1))
  congr 1
  funext a
  apply Fin.ext
  match a with
  | ⟨0, _⟩ =>
    show off 0 + 1 * (y 0).val = k.val
    have hy : (y 0).val < 1 := (y 0).isLt
    omega
  | ⟨1, _⟩ =>
    show off 1 + 1 * (y 1).val = (y 1).val
    omega

/-- What the body leaves in the result window's buffer is `kblock` of the three input blocks: the two feature blocks are
    loaded whole, the eight index loads are the eight rows, and the one store covers the buffer. -/
theorem out_eq_kblock (x0 x1 : Vec F S160x500 .f32) (x2 : Vec F S8x500 .i32) :
    out0_3 x0 x1 x2 = kblock x0 x1 x2 := by
  unfold out0_3
  rw [View.canon_unit_zero zero_offsets]
  simp only [View.ld_unit_zero (S := S160x500) zero_offsets]
  rw [ld_row x2 0 _ rfl rfl, ld_row x2 1 _ rfl rfl, ld_row x2 2 _ rfl rfl, ld_row x2 3 _ rfl rfl,
    ld_row x2 4 _ rfl rfl, ld_row x2 5 _ rfl rfl, ld_row x2 6 _ rfl rfl, ld_row x2 7 _ rfl rfl]
  rfl

section Arrays

variable (m : (ℓ : Loc nD τ sig) → Buf (Elt F) ℓ)

/-! ## The windows' blocks are the arrays -/

/-- Every window's block index is zero on both axes at the launch's one point. -/
theorem origin_0 : (fun a => win0_0.index t0_0 a * main_call0_v0.ty.shape.size a) = fun _ => 0 :=
  funext fun a => by fin_cases a <;> decide
theorem origin_1 : (fun a => win0_1.index t0_0 a * main_call0_v1.ty.shape.size a) = fun _ => 0 :=
  funext fun a => by fin_cases a <;> decide
theorem origin_2 : (fun a => win0_2.index t0_0 a * main_call0_v4.ty.shape.size a) = fun _ => 0 :=
  funext fun a => by fin_cases a <;> decide
theorem origin_3 : (fun a => win0_3.index t0_0 a * main_call0_v5.ty.shape.size a) = fun _ => 0 :=
  funext fun a => by fin_cases a <;> decide

/-- The first feature window's block is the whole array the region finds. -/
theorem iblk_0 (c : Dev nD) (t : Fin cfg0.N) : iblk m c 0 t = V m c main_call0_v0 := by
  obtain rfl := fin_N0 t
  unfold iblk
  exact Memref.read_access_unit_zero (Elt F) main_call0_v0 origin_0 (fun a => by rw [congrFun origin_0 a]; simp)
    (V m c main_call0_v0)

/-- The second feature window's block is the whole array the region finds. -/
theorem iblk_1 (c : Dev nD) (t : Fin cfg0.N) : iblk m c 1 t = V m c main_call0_v1 := by
  obtain rfl := fin_N0 t
  unfold iblk
  exact Memref.read_access_unit_zero (Elt F) main_call0_v1 origin_1 (fun a => by rw [congrFun origin_1 a]; simp)
    (V m c main_call0_v1)

/-- The index window's block is the whole [8, 500] array the region finds. -/
theorem iblk_2 (c : Dev nD) (t : Fin cfg0.N) : iblk m c 2 t = V m c main_call0_v4 := by
  obtain rfl := fin_N0 t
  unfold iblk
  exact Memref.read_access_unit_zero (Elt F) main_call0_v4 origin_2 (fun a => by rw [congrFun origin_2 a]; simp)
    (V m c main_call0_v4)

/-! ## The result array after the launch -/

/-- What the body stores, from the arrays the region finds. -/
abbrev stored (c : Dev nD) : FVec F S160x500 .f32 :=
  kblock (V m c main_call0_v0) (V m c main_call0_v1) (V m c main_call0_v4)

/-- What the one point writes back is `stored` read through the point's block, which is the whole array. -/
theorem flushed_eq (c : Dev nD) (t : Fin cfg0.N) :
    (dats m 0 c).flushed 3 t = ((cfg0.win 3).blk t).view.read (Elt F) (stored m c) := by
  obtain rfl := fin_N0 t
  show (cfg0.win 3).cut (grid0.coords t0_0) ((dats m 0 c).after 3 t0_0) = _
  rw [after0_3, out_eq_kblock, iblk_0, iblk_1, iblk_2]
  exact (Memref.read_access_unit_zero (Elt F) main_call0_v5 origin_3 (fun a => by rw [congrFun origin_3 a]; simp)
    (stored m c)).symm

/-- The one point's block covers the result array, so the array ends holding `stored`. -/
theorem final (c : Dev nD) : (dats m 0 c).arrAt 3 cfg0.N = stored m c :=
  (dats m 0 c).arrAt_eq_of_cover 3 (stored m c) (fun t _ => flushed_eq m c t) fun i =>
    ⟨t0_0, flush0_3 t0_0, by
      show i ∈ ((View.whole main_call0_v5).slice (win0_3.rect t0_0)).set
      rw [View.set_slice_whole, Rect.mem_set_unit]
      intro a
      have h0 : (i 0 : Nat) < 160 := (i 0).isLt
      have h1 : (i 1 : Nat) < 500 := (i 1).isLt
      match a with
      | ⟨0, _⟩ =>
        show win0_3.index t0_0 0 * win0_3.size 0 ≤ (i 0 : Nat) ∧ (i 0 : Nat) < win0_3.index t0_0 0 * win0_3.size 0 + win0_3.xsize (grid0.coords t0_0) 0
        rw [show win0_3.index t0_0 0 * win0_3.size 0 = 0 from by decide +kernel, show win0_3.xsize (grid0.coords t0_0) 0 = 160 from by decide +kernel]
        omega
      | ⟨1, _⟩ =>
        show win0_3.index t0_0 1 * win0_3.size 1 ≤ (i 1 : Nat) ∧ (i 1 : Nat) < win0_3.index t0_0 1 * win0_3.size 1 + win0_3.xsize (grid0.coords t0_0) 1
        rw [show win0_3.index t0_0 1 * win0_3.size 1 = 0 from by decide +kernel, show win0_3.xsize (grid0.coords t0_0) 1 = 500 from by decide +kernel]
        omega⟩

/-! ## The host's lines before and after the launch -/

/-- The first launched array is the first feature array read as [160, 500]. -/
theorem V_feat1 (c : Dev nD) :
    V m c main_call0_v0 = shapeCast S160x500 (m ((c.tc : Thread nD τ).loc main_arg0)) shapeCasts_S1x160x500_S160x500 := by
  show StableHlo.after hostOps0 (fun b => m (c, b)) (Proc.devRef .tc main_call0_v0) = _
  after_results
  rfl

/-- The second launched array is the second feature array read as [160, 500]. -/
theorem V_feat2 (c : Dev nD) :
    V m c main_call0_v1 = shapeCast S160x500 (m ((c.tc : Thread nD τ).loc main_arg1)) shapeCasts_S1x160x500_S160x500 := by
  show StableHlo.after hostOps0 (fun b => m (c, b)) (Proc.devRef .tc main_call0_v1) = _
  after_results
  rfl

/-- The third launched array is the capped, re-read and transposed index array. -/
theorem V_inds (c : Dev nD) : V m c main_call0_v4 = idxT (m ((c.tc : Thread nD τ).loc main_arg2)) := by
  show StableHlo.after hostOps0 (fun b => m (c, b)) (Proc.devRef .tc main_call0_v4) = _
  after_results
  rfl

/-- The host's last line puts a unit axis in front of the result array. -/
theorem tail_eq (c : Dev nD) :
    Pipeline.afterTail₀ cfgs (dats m) 0 (V0 m) [hostOps1] c main_v0
      = broadcastInDim S1x160x500 ![1, 2] bcast_S160x500_S1x160x500_1_2 (stored m c) := by
  unfold Pipeline.afterTail₀
  show StableHlo.after hostOps1 _ (Proc.devRef .tc main_v0) = _
  after_results
  exact congrArg (broadcastInDim S1x160x500 ![1, 2] bcast_S160x500_S1x160x500_1_2)
    ((Pipeline.withArrays_arr spec0 launch0.win.arr_inj c (V0 m c) (fun w => (dats m 0 c).arrAt w cfg0.N) 3).trans
      (final m c))

/-- The result buffer's final contents are `Kterm` of the arguments. -/
theorem result_eq (c : Dev nD) :
    Pipeline.afterTail₀ cfgs (dats m) 0 (V0 m) [hostOps1] c main_v0
      = Kterm (m ((c.tc : Thread nD τ).loc main_arg0)) (m ((c.tc : Thread nD τ).loc main_arg1)) (m ((c.tc : Thread nD τ).loc main_arg2)) := by
  rw [tail_eq]
  unfold Kterm stored
  rw [V_feat1, V_feat2, V_inds]

end Arrays

/-! ## The run -/

/-- Every weakly fair execution of the kernel program terminates with its result at `Kterm` of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
        = Kterm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Hand

end
-- ==== Proof.KerValue.lean ====
/-
  The kernel's term at an index, on admissible inputs: an index word in [0, 500) is its own cap; row k of the count
  matrix at column n is the number of point n's slots naming column k (eight 0/1 terms added from zero); the matrix
  product into the zero accumulator is the sum over the 500 columns; then the factor feat1 and the literal 1/8 — the
  specification's kernel form.
-/
import proofs.«406279_j25383256719963_3_alg».proof.Proof.KerTerm
import proofs.«406279_j25383256719963_3_alg».proof.Proof.Spec
import Idealize.ShloMosaic.PureOps.Ideal.Laws
import Idealize.ShloMosaic.Lib.ValueLayout
import Idealize.ShloMosaic.Lib.WordArith
import Idealize.ShloMosaic.Lib.IdealHost
import Idealize.ShloMosaic.Lib.Pipeline.Value

noncomputable section

namespace Cert.KernelIdeal.Hand

open Cert.KernelIdeal Cert.KernelIdeal.Gen Idealize.ShloMosaic Idealize.ShloMosaic.ValueIdx
open scoped BigOperators

/-- The word of the literal 1/8. -/
theorem eighth : Ideal.ofBits .f32 0x3E000000#32 = (((1 / 8 : ℝ) : ℝ) : EReal) := by
  simp [Ideal.ofBits, Ideal.ieee, -EReal.coe_mul]; norm_num

/-- The left operand's index at output (c, n) and contraction position q: row c … -/
theorem lhs_mm_0 (i : S160x500.Idx) (q : dot_S160x500_S500x500_S160x500_1_0_0_1_n_n.contr.Idx) :
    (dot_S160x500_S500x500_S160x500_1_0_0_1_n_n.lhsIdx i q 0).val = (i 0).val := by
  unfold DotDims.lhsIdx
  rw [dif_neg (show ¬(0 : Fin S160x500.rank) ∈ dot_S160x500_S500x500_S160x500_1_0_0_1_n_n.lhsBatch by decide),
    dif_pos (show (0 : Fin S160x500.rank) ∈ dot_S160x500_S500x500_S160x500_1_0_0_1_n_n.lhsNonContracting by decide)]
  rfl

/-- … and column q. -/
theorem lhs_mm_1 (i : S160x500.Idx) (q : dot_S160x500_S500x500_S160x500_1_0_0_1_n_n.contr.Idx) :
    (dot_S160x500_S500x500_S160x500_1_0_0_1_n_n.lhsIdx i q 1).val = (q ⟨0, by decide⟩).val :=
  dot_S160x500_S500x500_S160x500_1_0_0_1_n_n.lhsIdx_val_of_single rfl i q

/-- The right operand's index at output (c, n) and contraction position q: row q … -/
theorem rhs_mm_0 (i : S160x500.Idx) (q : dot_S160x500_S500x500_S160x500_1_0_0_1_n_n.contr.Idx) :
    (dot_S160x500_S500x500_S160x500_1_0_0_1_n_n.rhsIdx i q 0).val = (q ⟨0, by decide⟩).val :=
  dot_S160x500_S500x500_S160x500_1_0_0_1_n_n.rhsIdx_val_of_single rfl i q

/-- … and column n. -/
theorem rhs_mm_1 (i : S160x500.Idx) (q : dot_S160x500_S500x500_S160x500_1_0_0_1_n_n.contr.Idx) :
    (dot_S160x500_S500x500_S160x500_1_0_0_1_n_n.rhsIdx i q 1).val = (i 1).val := by
  unfold DotDims.rhsIdx
  rw [dif_neg (show ¬(1 : Fin S500x500.rank) ∈ dot_S160x500_S500x500_S160x500_1_0_0_1_n_n.rhsBatch by decide),
    dif_pos (show (1 : Fin S500x500.rank) ∈ dot_S160x500_S500x500_S160x500_1_0_0_1_n_n.rhsNonContracting by decide)]
  rfl

/-- The matrix product into the zero accumulator, at (c, n): the sum over the 500 contracted columns. -/
theorem mm_apply (L : FVec Ideal S160x500 .bf16) (R : FVec Ideal S500x500 .bf16) (c : Fin 160) (n : Fin 500) :
    matmul dot_S160x500_S500x500_S160x500_1_0_0_1_n_n none L R (constant (F := Ideal) S160x500 .f32 0x00000000#32) (ix2 c n)
      = ∑ k : Fin 500, L (ix2 c k) * R (ix2 k n) := by
  simp only [matmul]
  rw [Ideal.matmul_constant_zero_apply,
    ← Equiv.sum_comp (contrEquiv1 dot_S160x500_S500x500_S160x500_1_0_0_1_n_n 500 rfl rfl).symm]
  refine Finset.sum_congr rfl fun k _ => ?_
  have hk := contrEquiv1_symm_val dot_S160x500_S500x500_S160x500_1_0_0_1_n_n 500 rfl rfl k
  have el : dot_S160x500_S500x500_S160x500_1_0_0_1_n_n.lhsIdx (ix2 c n)
      ((contrEquiv1 dot_S160x500_S500x500_S160x500_1_0_0_1_n_n 500 rfl rfl).symm k) = ix2 c k :=
    funext fun a => Fin.ext (by
      match a with
      | ⟨0, _⟩ => exact lhs_mm_0 _ _
      | ⟨1, _⟩ => exact (lhs_mm_1 _ _).trans hk)
  have er : dot_S160x500_S500x500_S160x500_1_0_0_1_n_n.rhsIdx (ix2 c n)
      ((contrEquiv1 dot_S160x500_S500x500_S160x500_1_0_0_1_n_n 500 rfl rfl).symm k) = ix2 k n :=
    funext fun a => Fin.ext (by
      match a with
      | ⟨0, _⟩ => exact (rhs_mm_0 _ _).trans hk
      | ⟨1, _⟩ => exact rhs_mm_1 _ _)
  rw [el, er]

/-- The capped, re-read and transposed index array at (j, n): the cap of slot j of point n. -/
theorem idxT_apply (inds : IVec S4000 32) (j : Fin 8) (n : Fin 500) :
    idxT inds (ix2 j n) = IntOp.minsi 499#32 (IntOp.maxsi 0#32 (inds (Cert.Spec.slot n j))) := by
  unfold idxT
  refine (transpose_ix2_apply _ _ j n).trans ?_
  refine (shapeCast_apply _ _ (ix2 n j) (Cert.Spec.slot n j) ?_).trans ?_
  · rw [Shape.rowMajor_val_one, Shape.rowMajor_val_two]
    show 8 * n.val + j.val = n.val * 8 + j.val
    omega
  · rfl

/-- A word in [0, 500) is its own cap into [0, 499]. -/
theorem cap_eq (v : BitVec 32) (hv : v.toNat < 500) : IntOp.minsi 499#32 (IntOp.maxsi 0#32 v) = v := by
  apply BitVec.eq_of_toNat_eq
  have e := BitVec.toInt_eq_toNat_cond v
  have hm : (IntOp.maxsi 0#32 v).toNat = v.toNat := by
    rw [WordArith.toNat_maxsi_zero]; omega
  rw [WordArith.toNat_minsi_of_lt _ _ (by decide) (by rw [hm]; omega), hm]
  show min 499 v.toNat = v.toNat
  omega

/-- The widened equality bit of two words, converted, is the real 1 or 0. -/
theorem bit_real (x y : BitVec 32) :
    FloatOps.sitofp (F := Ideal) .f32 ((IntOp.cmpi .eq x y).setWidth 32) = (((if x = y then (1 : ℝ) else 0) : ℝ) : EReal) := by
  show ((((BitVec.ofBool (x == y)).setWidth 32).toInt : ℝ) : EReal) = _
  by_cases h : x = y
  · have hb : (x == y) = true := by rw [beq_iff_eq]; exact h
    have h1 : ((BitVec.ofBool true).setWidth 32 : BitVec 32).toInt = 1 := by decide
    rw [hb, if_pos h, h1]; norm_num
  · have hb : (x == y) = false := by rw [beq_eq_false_iff_ne]; exact h
    have h0 : ((BitVec.ofBool false).setWidth 32 : BitVec 32).toInt = 0 := by decide
    rw [hb, if_neg h, h0]; norm_num

/-- One slot's 0/1 matrix: entry (k, n) says whether the slot's word at point n is the row number k. -/
def hot (I : IVec S500x500 32) (v : Vec Ideal S1x500 .i32) : FVec Ideal S500x500 .bf16 :=
  truncf .bf16 (sitofp .f32 (extui 32 (cmpi .eq I
    (broadcastTo S500x500 (shapeCast S1x500 (shapeCast S500 v shapeCasts_S1x500_S500) shapeCasts_S500_S1x500)
      broadcasts_S1x500_S500x500)) natLt_1_32)) bitsLt_bf16_f32

/-- Row j of an [8, 500] word array against the row numbers, at (k, n): the real 1 when the word at (j, n) is k, else 0. -/
theorem hot_apply (X : IVec S8x500 32) (j : Fin 8) (k n : Fin 500) :
    hot (iota .tc S500x500 32 [0] iota_S500x500_d0_w32) (row (F := Ideal) X j) (ix2 k n)
      = (((if BitVec.ofNat 32 k.val = X (ix2 j n) then (1 : ℝ) else 0) : ℝ) : EReal) := by
  unfold hot
  rw [truncf_apply, sitofp_apply, extui_apply]
  refine Eq.trans ?_ (bit_real (BitVec.ofNat 32 k.val) (X (ix2 j n)))
  congr 2
  show IntOp.cmpi .eq _ _ = _
  congr 1
  · exact iota_single_apply _ _ _ _ _ _
  · refine (broadcastTo_1b_ab_apply _ _ k n).trans ?_
    refine (shapeCast_a_1a_apply _ _ 0 n).trans ?_
    refine (shapeCast_1a_a_apply _ _ n).trans ?_
    rfl

/-- The count matrix's first four terms, added from the zero word. -/
theorem pay4_eq (v7 v16 v25 v34 : Vec Ideal S1x500 .i32) :
    k0_pay4 (F := Ideal) v7 v16 v25 v34
      = addf (addf (addf (addf (broadcast S500x500 (Scalar.ofBits (F := Ideal) .bf16 0x0000#16))
          (hot (iota .tc S500x500 32 [0] iota_S500x500_d0_w32) v7))
          (hot (iota .tc S500x500 32 [0] iota_S500x500_d0_w32) v16))
          (hot (iota .tc S500x500 32 [0] iota_S500x500_d0_w32) v25))
          (hot (iota .tc S500x500 32 [0] iota_S500x500_d0_w32) v34) := rfl

/-- The stored value: feat1 times the product of feat2 with the completed count matrix, times the literal. -/
theorem pay1_eq (v1 : FVec Ideal S160x500 .f32) (v4 : FVec Ideal S160x500 .bf16) (v5 : IVec S500x500 32)
    (v42 : FVec Ideal S500x500 .bf16) (v43 v52 v61 v70 : Vec Ideal S1x500 .i32) :
    k0_pay1 v1 v4 v5 v42 v43 v52 v61 v70
      = mulf (mulf v1 (matmul dot_S160x500_S500x500_S160x500_1_0_0_1_n_n none v4
            (addf (addf (addf (addf v42 (hot v5 v43)) (hot v5 v52)) (hot v5 v61)) (hot v5 v70))
            (constant (F := Ideal) S160x500 .f32 0x00000000#32)))
          (broadcast S160x500 (Scalar.ofBits (F := Ideal) .f32 0x3E000000#32)) := rfl

/-- On admissible indices, "row number k is the capped word of slot j of point n" says that slot j names column k. -/
theorem hit_iff (inds : Cert.Spec.Inds) (hq : ∀ q, (inds q).toNat < 500) (j : Fin 8) (k n : Fin 500) :
    BitVec.ofNat 32 k.val = idxT inds (ix2 j n) ↔ Cert.Spec.nb inds n j = k := by
  rw [idxT_apply, cap_eq _ (hq _)]
  have hv := hq (Cert.Spec.slot n j)
  have hk : (BitVec.ofNat 32 k.val).toNat = k.val := by
    rw [BitVec.toNat_ofNat]; exact Nat.mod_eq_of_lt (by have := k.isLt; omega)
  constructor
  · intro h
    have h2 := congrArg BitVec.toNat h
    rw [hk] at h2
    exact Fin.ext (by show min (inds (Cert.Spec.slot n j)).toNat 499 = k.val; omega)
  · intro h
    have h2 : min (inds (Cert.Spec.slot n j)).toNat 499 = k.val := congrArg Fin.val h
    apply BitVec.eq_of_toNat_eq
    rw [hk]; omega

/-- The completed count matrix at (k, n) is the number of point n's slots naming column k. -/
theorem cntmat_apply (inds : Cert.Spec.Inds) (hq : ∀ q, (inds q).toNat < 500) (k n : Fin 500) :
    (addf (addf (addf (addf
        (k0_pay4 (F := Ideal) (row (F := Ideal) (idxT inds) 0) (row (F := Ideal) (idxT inds) 1)
          (row (F := Ideal) (idxT inds) 2) (row (F := Ideal) (idxT inds) 3))
        (hot (iota .tc S500x500 32 [0] iota_S500x500_d0_w32) (row (F := Ideal) (idxT inds) 4)))
        (hot (iota .tc S500x500 32 [0] iota_S500x500_d0_w32) (row (F := Ideal) (idxT inds) 5)))
        (hot (iota .tc S500x500 32 [0] iota_S500x500_d0_w32) (row (F := Ideal) (idxT inds) 6)))
        (hot (iota .tc S500x500 32 [0] iota_S500x500_d0_w32) (row (F := Ideal) (idxT inds) 7))) (ix2 k n)
      = ((Cert.Spec.cnt inds n k : ℝ) : EReal) := by
  have e : ∀ j : Fin 8, hot (iota .tc S500x500 32 [0] iota_S500x500_d0_w32) (row (F := Ideal) (idxT inds) j) (ix2 k n)
      = (((if Cert.Spec.nb inds n j = k then (1 : ℝ) else 0) : ℝ) : EReal) := fun j => by
    refine (hot_apply (idxT inds) j k n).trans ?_
    simp only [hit_iff inds hq]
  rw [pay4_eq]
  simp only [addf_apply, broadcast_apply]
  show Ideal.ofBits .bf16 0x0000#16 + _ + _ + _ + _ + _ + _ + _ + _ = _
  rw [Ideal.ofBits_zero_bf16, zero_add, e 0, e 1, e 2, e 3, e 4, e 5, e 6, e 7]
  unfold Cert.Spec.cnt
  rw [Fin.sum_univ_eight]
  simp only [EReal.coe_add]

/-- feat1 as the body sees it, at (c, n). -/
theorem pay2_apply (x : FVec Ideal S1x160x500 .f32) (c : Fin 160) (n : Fin 500) :
    k0_pay2 (F := Ideal) (shapeCast S160x500 x shapeCasts_S1x160x500_S160x500) (ix2 c n) = x (ix3 (0 : Fin 1) c n) := by
  show shapeCast S160x500 (shapeCast S160x500 x shapeCasts_S1x160x500_S160x500) shapeCasts_S160x500_S160x500 (ix2 c n) = _
  rw [shapeCast_self]
  exact shapeCast_1ab_ab_apply _ _ c n

/-- feat2 as the body sees it, at (c, k): the format change is the identity on extended reals. -/
theorem pay3_apply (x : FVec Ideal S1x160x500 .f32) (c : Fin 160) (k : Fin 500) :
    k0_pay3 (F := Ideal) (shapeCast S160x500 x shapeCasts_S1x160x500_S160x500) (ix2 c k) = x (ix3 (0 : Fin 1) c k) := by
  show (truncf .bf16 (shapeCast S160x500 (shapeCast S160x500 x shapeCasts_S1x160x500_S160x500) shapeCasts_S160x500_S160x500)
    bitsLt_bf16_f32 : FVec Ideal S160x500 .bf16) (ix2 c k) = _
  rw [truncf_apply, shapeCast_self]
  exact shapeCast_1ab_ab_apply _ _ c k

/-- On admissible inputs the kernel's term is the specification's kernel form. -/
theorem kterm_eq (x1 x2 : Cert.Spec.Feat) (inds : Cert.Spec.Inds) (h : Cert.Spec.Adm x1 x2 inds) :
    Kterm (F := Ideal) x1 x2 inds = Cert.Spec.Kform x1 x2 inds := by
  obtain ⟨_, _, hq⟩ := h
  funext i
  obtain ⟨a, c, n, rfl⟩ : ∃ (a : Fin 1) (c : Fin 160) (n : Fin 500), i = ix3 a c n := ⟨i 0, i 1, i 2, eq_ix3 i⟩
  obtain rfl : a = 0 := Subsingleton.elim _ _
  unfold Kterm
  refine (broadcastInDim_apply _ _ _ (ix3 (0 : Fin 1) c n) (ix2 c n) (fun ax => by
    match ax with
    | ⟨0, _⟩ => rfl
    | ⟨1, _⟩ => rfl)).trans ?_
  unfold kblock
  rw [pay1_eq, mulf_apply, mulf_apply, broadcast_apply, mm_apply, pay2_apply]
  show x1 (ix3 0 c n) * (∑ k : Fin 500, _) * Ideal.ofBits .f32 0x3E000000#32 = Cert.Spec.Kat x1 x2 inds 0 c n
  rw [eighth]
  unfold Cert.Spec.Kat
  congr 2
  refine Finset.sum_congr rfl fun k _ => ?_
  rw [pay3_apply, cntmat_apply inds hq]

end Cert.KernelIdeal.Hand

end
-- ==== Proof.lean ====
/-
  The certificate. Under the precondition (finite features, every index a column number in [0, 500)) both idealized
  programs end at one function of the arguments: the mean over a point's 8 neighbour slots of feat1 at the point times
  feat2 at the neighbour's column. The reference computes it slot by slot (take, multiply, sum, divide by 8); the kernel
  counts for each column how many of the point's slots name it, takes the count-weighted sum of feat2's row as one matrix
  product, multiplies by feat1 and by the literal 1/8. On finite features ∑_k x_k · #{j : nb j = k} = ∑_j x_(nb j) and the
  finite factors distribute, which is the whole of the algebra. The frames of the two kernel programs are the generated
  ones; the reference's is its run with the result dropped; nothing was rewritten by the ideal pass.
-/
import proofs.«406279_j25383256719963_3_alg».proof.Defs
import proofs.«406279_j25383256719963_3_alg».proof.Proof.Gen.Kernel
import proofs.«406279_j25383256719963_3_alg».proof.Proof.Gen.Kernel.Frame
import proofs.«406279_j25383256719963_3_alg».proof.Proof.Gen.KernelIdeal
import proofs.«406279_j25383256719963_3_alg».proof.Proof.Gen.KernelIdeal.Frame
import proofs.«406279_j25383256719963_3_alg».proof.Proof.Gen.ReferenceIdeal
import proofs.«406279_j25383256719963_3_alg».proof.Proof.Gen.Pre_finite_inputs
import proofs.«406279_j25383256719963_3_alg».proof.Proof.Spec
import proofs.«406279_j25383256719963_3_alg».proof.Proof.PreDecode
import proofs.«406279_j25383256719963_3_alg».proof.Proof.RefRun
import proofs.«406279_j25383256719963_3_alg».proof.Proof.RefValue
import proofs.«406279_j25383256719963_3_alg».proof.Proof.KerRun
import proofs.«406279_j25383256719963_3_alg».proof.Proof.KerValue

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run, the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- Both runs end at the specification's reference form of the (agreeing) arguments. -/
theorem algebraic : Cert.algebraic_KernelIdeal_ReferenceIdeal := by
  intro m ρ m' ρ' hpre hagree
  have hadm := fun c => Cert.PreDecode.adm_of_pre _ _ _ (hpre c)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.Hand.run (F := Ideal) m ρ)
    exact (Cert.KernelIdeal.Hand.kterm_eq _ _ _ (hadm c)).trans (Cert.Spec.kform_eq_G _ _ _ (hadm c))
  · refine (θ_run Cert.ReferenceIdeal.defs _ _).mono (fun _ h c => ⟨(h c).1.trans ?_, (h c).2⟩)
      (Cert.ReferenceIdeal.Hand.run (F := Ideal) m' ρ')
    rw [(hagree c).1, (hagree c).2.1, (hagree c).2.2]
    exact Cert.ReferenceIdeal.Hand.rterm_eq _ _ _ (hadm c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
